-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  main_v53

def fn_part2 {F : FTy → Type} [FloatOps F] (main_arg7 : FVec F S2048x1024 .f32) (main_arg8 : FVec F S1x1024 .f32) (main_arg9 : FVec F S2048x1024 .f32) (main_arg10 : FVec F S1x1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_v48 main_v49 main_v50

def fn_part1 {F : FTy → Type} [FloatOps F] (main_arg4 : FVec F S1x1024 .f32) (main_arg5 : FVec F S2048x1024 .f32) (main_arg6 : FVec F S1x1024 .f32) (main_arg7 : FVec F S2048x1024 .f32) (main_arg8 : FVec F S1x1024 .f32) (main_arg9 : FVec F S2048x1024 .f32) (main_arg10 : FVec F S1x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1x1024 .f32) (main_arg5 : FVec F S2048x1024 .f32) (main_arg6 : FVec F S1x1024 .f32) (main_arg7 : FVec F S2048x1024 .f32) (main_arg8 : FVec F S1x1024 .f32) (main_arg9 : FVec F S2048x1024 .f32) (main_arg10 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S512x512 : Shape := ⟨2, ![512, 512]⟩
abbrev S512x1024 : Shape := ⟨2, ![512, 1024]⟩

abbrev nBuf : Space → Nat
  | .hbm => 18
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S1x1024, .f32⟩
  | .hbm, ⟨11, _⟩ => ⟨S4096x2048, .f32⟩
  | .hbm, ⟨12, _⟩ => ⟨S4096x2048, .bf16⟩
  | .hbm, ⟨13, _⟩ => ⟨S2048x1024, .bf16⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_29 : BitVec 32 := 0#32
  let v39 : BitVec 1 := Scalar.cmpi .ne v38 c0_i32_29
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  concatenates_S4096x1024_S4096x1024_S4096x2048_d1 : Shape.Concatenates [S4096x1024, S4096x1024] S4096x2048 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x2048.size a
  hwx0_0 : ∀ i : grid0.Coords, EltTy.bits .bf16 = 32 ∨ (Rect.block (s := S4096x2048) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .bf16 = 32 ∨ (Rect.block (s := S2048x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x1024.size a
  hwx0_2 : ∀ i : grid0.Coords, EltTy.bits .bf16 = 32 ∨ (Rect.block (s := S2048x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x1024.size a
  hwx0_3 : ∀ i : grid0.Coords, EltTy.bits .bf16 = 32 ∨ (Rect.block (s := S2048x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x1024.size a
  hwx0_4 : ∀ i : grid0.Coords, EltTy.bits .bf16 = 32 ∨ (Rect.block (s := S2048x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .f32 = 32 ∨ (Rect.block (s := S4096x1024) S512x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S4096x1024.size a
  hwx0_10 : ∀ i : grid0.Coords, EltTy.bits .f32 = 32 ∨ (Rect.block (s := S4096x1024) S512x1024.size (cc0_transform_10 i) (hinb0_10 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S512x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6) S512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S1x1024, .f32⟩
  | .hbm, ⟨11, _⟩ => ⟨S4096x2048, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x2048_S2048x1024_S4096x1024_1_0_0_1_n_n_wf : DotDims.WF S4096x2048 S2048x1024 S4096x1024 [1] [0] [0] [1] [] []

variable [Facts₀]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.Spec.lean ====
/-
  The mathematics of one LSTM cell step, stated once, index by index, over the extended reals.

  Write `z` for the row-wise concatenation `[x | h]` (4096 rows of 2048 entries). For a batch row `r` and an
  output column `n`, a gate's pre-activation is the dot product of row `r` of `z` with column `n` of the
  gate's weight matrix, plus the gate's bias at `n`:

      gatePre z w b r n = (∑ k, z r k * w k n) + b n.

  With `σ` the logistic function, the new hidden state is

      hNew r n = tanh (c r n * σ f + σ i * tanh g) * σ o,

  where `f`, `i`, `g`, `o` are the four gates' pre-activations at `(r, n)`.

  The only algebra the certificate needs is that a sum of 2048 terms is the sum of its four consecutive runs of
  512 terms: addition on the extended reals is associative and commutative, so no finiteness is used.
-/
import Idealize.ShloMosaic.PureOps.Ideal
import Idealize.ShloMosaic.Lib.ValueIdx

noncomputable section

namespace Cert.LstmSpec

open Idealize.ShloMosaic Idealize.ShloMosaic.ValueIdx

/-- Batch rows × output columns. -/
abbrev SBxN : Shape := ⟨2, ![4096, 1024]⟩
/-- Batch rows × the concatenated reduction axis. -/
abbrev SBxK : Shape := ⟨2, ![4096, 2048]⟩
/-- The reduction axis × output columns: a gate's weight matrix. -/
abbrev SKxN : Shape := ⟨2, ![2048, 1024]⟩
/-- A gate's bias, kept as a one-row matrix. -/
abbrev S1xN : Shape := ⟨2, ![1, 1024]⟩

/-- A gate's pre-activation at row `r`, column `n`: the dot product over the reduction axis plus the bias. -/
def gatePre (z : SBxK.Idx → EReal) (w : SKxN.Idx → EReal) (b : S1xN.Idx → EReal) (r : Fin 4096) (n : Fin 1024) : EReal :=
  (∑ k : Fin 2048, z (ix2 r k) * w (ix2 k n)) + b (ix2 0 n)

/-- One element of the cell update from the old cell value and the four pre-activations. -/
def cell (c f i g o : EReal) : EReal :=
  Ideal.tanh (c * Ideal.logistic f + Ideal.logistic i * Ideal.tanh g) * Ideal.logistic o

/-- The new hidden state, index by index, as one function of the concatenated input, the old cell state and the
    four gates' weights and biases. -/
def hNew (z : SBxK.Idx → EReal) (c : SBxN.Idx → EReal)
    (wf : SKxN.Idx → EReal) (bf : S1xN.Idx → EReal) (wi : SKxN.Idx → EReal) (bi : S1xN.Idx → EReal)
    (wc : SKxN.Idx → EReal) (bc : S1xN.Idx → EReal) (wo : SKxN.Idx → EReal) (bo : S1xN.Idx → EReal) :
    SBxN.Idx → EReal := fun j =>
  cell (c j) (gatePre z wf bf (j 0) (j 1)) (gatePre z wi bi (j 0) (j 1)) (gatePre z wc bc (j 0) (j 1))
    (gatePre z wo bo (j 0) (j 1))

/-- A sum over `0 … 2047` is the sum over the four runs `512·s … 512·s + 511`, `s = 0 … 3`. -/
theorem sum_range_2048_blocks (T : ℕ → EReal) :
    ∑ k ∈ Finset.range 2048, T k = ∑ s ∈ Finset.range 4, ∑ j ∈ Finset.range 512, T (512 * s + j) := by
  have h : (2048 : ℕ) = 512 + 512 + 512 + 512 := by norm_num
  rw [h, Finset.sum_range_add, Finset.sum_range_add, Finset.sum_range_add]
  simp only [Finset.sum_range_succ, Finset.sum_range_zero, zero_add, Nat.mul_zero, Nat.mul_one, Nat.zero_add]

/-- The `k`-th product of the dot product of row `R` of `z` with column `n` of `w`; zero past the axis' end, so that
    it is a function of every natural number. -/
def dotTerm (z : SBxK.Idx → EReal) (w : SKxN.Idx → EReal) (R : Fin 4096) (n : Fin 1024) (k : ℕ) : EReal :=
  if h : k < 2048 then z (ix2 R ⟨k, h⟩) * w (ix2 ⟨k, h⟩ n) else 0

theorem dotTerm_lt (z : SBxK.Idx → EReal) (w : SKxN.Idx → EReal) (R : Fin 4096) (n : Fin 1024) (k : ℕ) (h : k < 2048) :
    dotTerm z w R n k = z (ix2 R ⟨k, h⟩) * w (ix2 ⟨k, h⟩ n) := dif_pos h

/-- The dot product over the 2048-long axis is the sum of its four 512-long partial dot products `P 0 … P 3`,
    `P s` running over the positions `512·s … 512·s + 511`. -/
theorem dot_blocks (z : SBxK.Idx → EReal) (w : SKxN.Idx → EReal) (R : Fin 4096) (n : Fin 1024) (P : ℕ → EReal)
    (hP : ∀ s, s < 4 → P s = ∑ j ∈ Finset.range 512, dotTerm z w R n (512 * s + j)) :
    ∑ k : Fin 2048, z (ix2 R k) * w (ix2 k n) = ∑ s ∈ Finset.range 4, P s := by
  have hT : ∑ k : Fin 2048, z (ix2 R k) * w (ix2 k n) = ∑ k ∈ Finset.range 2048, dotTerm z w R n k := by
    rw [Finset.sum_range]
    exact Finset.sum_congr rfl fun k _ => (dotTerm_lt z w R n k.val k.isLt).symm
  rw [hT, sum_range_2048_blocks]
  exact Finset.sum_congr rfl fun s hs => (hP s (Finset.mem_range.mp hs)).symm

end Cert.LstmSpec

end
-- ==== Proof.RefIsSpec.lean ====
/-
  The reference computes the specification.

  The host program joins `x` and `h` along the columns, takes four dot products of the joined array with the gates'
  weight matrices, adds the broadcast biases, applies the logistic function (spelt `1 / (1 + exp (-p))`) to three of
  the pre-activations and `tanh` to the fourth, and combines them with the old cell state element by element. Read
  at an index, each of these is the corresponding piece of `LstmSpec.hNew` of the joined array: the sums are over
  the same 2048 products, and the literal `1.0` is the real number one.
-/
import proofs.«145260_j61220463837880_1_alg».proof.Proof.Gen.ReferenceIdeal.Read
import proofs.«145260_j61220463837880_1_alg».proof.Proof.Spec

noncomputable section

namespace Cert.ReferenceIdeal.RefValue

open Cert.ReferenceIdeal Cert.ReferenceIdeal.Read Idealize.ShloMosaic Idealize.ShloMosaic.ValueIdx Cert.LstmSpec

/-- The f32 pattern of `1.0` denotes the real number one. -/
theorem one_f32 : Ideal.ofBits .f32 0x3F800000#32 = 1 := by
  simp [Ideal.ofBits, Ideal.ieee, -EReal.coe_mul]; norm_num

/-- The forget gate's pre-activation: the host's dot product over the 2048-long joined axis plus the broadcast bias is the specification's
    pre-activation, the generated operand indices being `(row, k)`, `(k, column)` and `(0, column)`. -/
theorem pre_f (x0 x1 : (⟨S4096x1024, .f32⟩ : BufTy).Contents (Elt Ideal)) (x3 : (⟨S2048x1024, .f32⟩ : BufTy).Contents (Elt Ideal)) (x4 : (⟨S1x1024, .f32⟩ : BufTy).Contents (Elt Ideal)) (i : S4096x1024.Idx) :
    val_main_v3 (F := Ideal) x0 x1 x3 x4 i = gatePre (val_main_v0 (F := Ideal) x0 x1) x3 x4 (i 0) (i 1) := by
  rw [val_main_v3_apply, val_main_v1_apply, val_main_v2_apply]
  have hl : ∀ k, lidx_main_v1 i k = ix2 (i 0) k := fun k => funext fun a => Fin.ext (by
    match a with
    | ⟨0, _⟩ => rfl
    | ⟨1, _⟩ => rfl)
  have hr : ∀ k, ridx_main_v1 i k = ix2 k (i 1) := fun k => funext fun a => Fin.ext (by
    match a with
    | ⟨0, _⟩ => rfl
    | ⟨1, _⟩ => rfl)
  have hb : idx_main_v2 i = ix2 0 (i 1) := funext fun a => Fin.ext (by
    match a with
    | ⟨0, _⟩ => rfl
    | ⟨1, _⟩ => rfl)
  show (∑ k : Fin 2048, val_main_v0 (F := Ideal) x0 x1 (lidx_main_v1 i k) * x3 (ridx_main_v1 i k)) + x4 (idx_main_v2 i) = _
  rw [hb]
  unfold gatePre
  exact congrArg (· + x4 (ix2 0 (i 1))) (Finset.sum_congr rfl fun k _ => by rw [hl k, hr k]; rfl)

/-- The input gate's pre-activation: the host's dot product over the 2048-long joined axis plus the broadcast bias is the specification's
    pre-activation, the generated operand indices being `(row, k)`, `(k, column)` and `(0, column)`. -/
theorem pre_i (x0 x1 : (⟨S4096x1024, .f32⟩ : BufTy).Contents (Elt Ideal)) (x5 : (⟨S2048x1024, .f32⟩ : BufTy).Contents (Elt Ideal)) (x6 : (⟨S1x1024, .f32⟩ : BufTy).Contents (Elt Ideal)) (i : S4096x1024.Idx) :
    val_main_v12 (F := Ideal) x0 x1 x5 x6 i = gatePre (val_main_v0 (F := Ideal) x0 x1) x5 x6 (i 0) (i 1) := by
  rw [val_main_v12_apply, val_main_v10_apply, val_main_v11_apply]
  have hl : ∀ k, lidx_main_v10 i k = ix2 (i 0) k := fun k => funext fun a => Fin.ext (by
    match a with
    | ⟨0, _⟩ => rfl
    | ⟨1, _⟩ => rfl)
  have hr : ∀ k, ridx_main_v10 i k = ix2 k (i 1) := fun k => funext fun a => Fin.ext (by
    match a with
    | ⟨0, _⟩ => rfl
    | ⟨1, _⟩ => rfl)
  have hb : idx_main_v11 i = ix2 0 (i 1) := funext fun a => Fin.ext (by
    match a with
    | ⟨0, _⟩ => rfl
    | ⟨1, _⟩ => rfl)
  show (∑ k : Fin 2048, val_main_v0 (F := Ideal) x0 x1 (lidx_main_v10 i k) * x5 (ridx_main_v10 i k)) + x6 (idx_main_v11 i) = _
  rw [hb]
  unfold gatePre
  exact congrArg (· + x6 (ix2 0 (i 1))) (Finset.sum_congr rfl fun k _ => by rw [hl k, hr k]; rfl)

/-- The candidate's pre-activation: the host's dot product over the 2048-long joined axis plus the broadcast bias is the specification's
    pre-activation, the generated operand indices being `(row, k)`, `(k, column)` and `(0, column)`. -/
theorem pre_g (x0 x1 : (⟨S4096x1024, .f32⟩ : BufTy).Contents (Elt Ideal)) (x7 : (⟨S2048x1024, .f32⟩ : BufTy).Contents (Elt Ideal)) (x8 : (⟨S1x1024, .f32⟩ : BufTy).Contents (Elt Ideal)) (i : S4096x1024.Idx) :
    val_main_v21 (F := Ideal) x0 x1 x7 x8 i = gatePre (val_main_v0 (F := Ideal) x0 x1) x7 x8 (i 0) (i 1) := by
  rw [val_main_v21_apply, val_main_v19_apply, val_main_v20_apply]
  have hl : ∀ k, lidx_main_v19 i k = ix2 (i 0) k := fun k => funext fun a => Fin.ext (by
    match a with
    | ⟨0, _⟩ => rfl
    | ⟨1, _⟩ => rfl)
  have hr : ∀ k, ridx_main_v19 i k = ix2 k (i 1) := fun k => funext fun a => Fin.ext (by
    match a with
    | ⟨0, _⟩ => rfl
    | ⟨1, _⟩ => rfl)
  have hb : idx_main_v20 i = ix2 0 (i 1) := funext fun a => Fin.ext (by
    match a with
    | ⟨0, _⟩ => rfl
    | ⟨1, _⟩ => rfl)
  show (∑ k : Fin 2048, val_main_v0 (F := Ideal) x0 x1 (lidx_main_v19 i k) * x7 (ridx_main_v19 i k)) + x8 (idx_main_v20 i) = _
  rw [hb]
  unfold gatePre
  exact congrArg (· + x8 (ix2 0 (i 1))) (Finset.sum_congr rfl fun k _ => by rw [hl k, hr k]; rfl)

/-- The output gate's pre-activation: the host's dot product over the 2048-long joined axis plus the broadcast bias is the specification's
    pre-activation, the generated operand indices being `(row, k)`, `(k, column)` and `(0, column)`. -/
theorem pre_o (x0 x1 : (⟨S4096x1024, .f32⟩ : BufTy).Contents (Elt Ideal)) (x9 : (⟨S2048x1024, .f32⟩ : BufTy).Contents (Elt Ideal)) (x10 : (⟨S1x1024, .f32⟩ : BufTy).Contents (Elt Ideal)) (i : S4096x1024.Idx) :
    val_main_v25 (F := Ideal) x0 x1 x9 x10 i = gatePre (val_main_v0 (F := Ideal) x0 x1) x9 x10 (i 0) (i 1) := by
  rw [val_main_v25_apply, val_main_v23_apply, val_main_v24_apply]
  have hl : ∀ k, lidx_main_v23 i k = ix2 (i 0) k := fun k => funext fun a => Fin.ext (by
    match a with
    | ⟨0, _⟩ => rfl
    | ⟨1, _⟩ => rfl)
  have hr : ∀ k, ridx_main_v23 i k = ix2 k (i 1) := fun k => funext fun a => Fin.ext (by
    match a with
    | ⟨0, _⟩ => rfl
    | ⟨1, _⟩ => rfl)
  have hb : idx_main_v24 i = ix2 0 (i 1) := funext fun a => Fin.ext (by
    match a with
    | ⟨0, _⟩ => rfl
    | ⟨1, _⟩ => rfl)
  show (∑ k : Fin 2048, val_main_v0 (F := Ideal) x0 x1 (lidx_main_v23 i k) * x9 (ridx_main_v23 i k)) + x10 (idx_main_v24 i) = _
  rw [hb]
  unfold gatePre
  exact congrArg (· + x10 (ix2 0 (i 1))) (Finset.sum_congr rfl fun k _ => by rw [hl k, hr k]; rfl)

/-- The forget gate: jax's expansion of the logistic function on the host, `1 / (1 + exp (-p))` with both ones the literal
    `1.0`, is the logistic function of the pre-activation. -/
theorem sigma_f (x0 x1 : (⟨S4096x1024, .f32⟩ : BufTy).Contents (Elt Ideal)) (x3 : (⟨S2048x1024, .f32⟩ : BufTy).Contents (Elt Ideal)) (x4 : (⟨S1x1024, .f32⟩ : BufTy).Contents (Elt Ideal)) (i : S4096x1024.Idx) :
    val_main_v9 (F := Ideal) x0 x1 x3 x4 i = Ideal.logistic (val_main_v3 (F := Ideal) x0 x1 x3 x4 i) := by
  rw [val_main_v9_apply, val_main_v8_apply, val_main_cst_0_apply, val_main_v7_apply, val_main_v6_apply,
    val_main_cst_apply, val_main_v5_apply, val_main_v4_apply]
  show Ideal.div (Ideal.ofBits .f32 0x3F800000#32)
      (Ideal.ofBits .f32 0x3F800000#32 + Ideal.exp (-(val_main_v3 (F := Ideal) x0 x1 x3 x4 i))) = _
  rw [one_f32]
  rfl

/-- The input gate: jax's expansion of the logistic function on the host, `1 / (1 + exp (-p))` with both ones the literal
    `1.0`, is the logistic function of the pre-activation. -/
theorem sigma_i (x0 x1 : (⟨S4096x1024, .f32⟩ : BufTy).Contents (Elt Ideal)) (x5 : (⟨S2048x1024, .f32⟩ : BufTy).Contents (Elt Ideal)) (x6 : (⟨S1x1024, .f32⟩ : BufTy).Contents (Elt Ideal)) (i : S4096x1024.Idx) :
    val_main_v18 (F := Ideal) x0 x1 x5 x6 i = Ideal.logistic (val_main_v12 (F := Ideal) x0 x1 x5 x6 i) := by
  rw [val_main_v18_apply, val_main_v17_apply, val_main_cst_2_apply, val_main_v16_apply, val_main_v15_apply,
    val_main_cst_1_apply, val_main_v14_apply, val_main_v13_apply]
  show Ideal.div (Ideal.ofBits .f32 0x3F800000#32)
      (Ideal.ofBits .f32 0x3F800000#32 + Ideal.exp (-(val_main_v12 (F := Ideal) x0 x1 x5 x6 i))) = _
  rw [one_f32]
  rfl

/-- The output gate: jax's expansion of the logistic function on the host, `1 / (1 + exp (-p))` with both ones the literal
    `1.0`, is the logistic function of the pre-activation. -/
theorem sigma_o (x0 x1 : (⟨S4096x1024, .f32⟩ : BufTy).Contents (Elt Ideal)) (x9 : (⟨S2048x1024, .f32⟩ : BufTy).Contents (Elt Ideal)) (x10 : (⟨S1x1024, .f32⟩ : BufTy).Contents (Elt Ideal)) (i : S4096x1024.Idx) :
    val_main_v31 (F := Ideal) x0 x1 x9 x10 i = Ideal.logistic (val_main_v25 (F := Ideal) x0 x1 x9 x10 i) := by
  rw [val_main_v31_apply, val_main_v30_apply, val_main_cst_4_apply, val_main_v29_apply, val_main_v28_apply,
    val_main_cst_3_apply, val_main_v27_apply, val_main_v26_apply]
  show Ideal.div (Ideal.ofBits .f32 0x3F800000#32)
      (Ideal.ofBits .f32 0x3F800000#32 + Ideal.exp (-(val_main_v25 (F := Ideal) x0 x1 x9 x10 i))) = _
  rw [one_f32]
  rfl

/-- The reference's result is the specification's new hidden state of the joined array `[x | h]`, the old cell state
    and the four gates' weights and biases. -/
theorem result_eq (x0 x1 x2 : (⟨S4096x1024, .f32⟩ : BufTy).Contents (Elt Ideal)) (x3 : (⟨S2048x1024, .f32⟩ : BufTy).Contents (Elt Ideal)) (x4 : (⟨S1x1024, .f32⟩ : BufTy).Contents (Elt Ideal)) (x5 : (⟨S2048x1024, .f32⟩ : BufTy).Contents (Elt Ideal)) (x6 : (⟨S1x1024, .f32⟩ : BufTy).Contents (Elt Ideal)) (x7 : (⟨S2048x1024, .f32⟩ : BufTy).Contents (Elt Ideal)) (x8 : (⟨S1x1024, .f32⟩ : BufTy).Contents (Elt Ideal))
    (x9 : (⟨S2048x1024, .f32⟩ : BufTy).Contents (Elt Ideal)) (x10 : (⟨S1x1024, .f32⟩ : BufTy).Contents (Elt Ideal)) :
    val_main_v36 (F := Ideal) x0 x1 x2 x3 x4 x5 x6 x7 x8 x9 x10
      = hNew (val_main_v0 (F := Ideal) x0 x1) x2 x3 x4 x5 x6 x7 x8 x9 x10 := by
  funext i
  rw [val_main_v36_apply, val_main_v35_apply, val_main_v34_apply, val_main_v33_apply, val_main_v32_apply,
    val_main_v22_apply, sigma_f, sigma_i, sigma_o, pre_f, pre_i, pre_g, pre_o]
  rfl

end Cert.ReferenceIdeal.RefValue

end
-- ==== Proof.KPayload.lean ====
/-
  The kernel body's arithmetic, read at one element of a 512 × 1024 tile.

  At a grid point the body holds a 512 × 512 tile `a` of the joined input and, per gate, a 512 × 1024 tile `w` of the
  gate's weights. Its matrix product into a zero accumulator is, at row `r` and column `n`, the sum over the tile's
  512 inner positions of `a r j * w j n`; the accumulator step adds that sum to what the scratch held; the reset
  value is zero; and the last step's output is the cell update of the old cell value and the four accumulators plus
  their biases, the one-row bias read at `(0, n)`.
-/
import proofs.«145260_j61220463837880_1_alg».proof.Proof.Gen.KernelIdeal.Skeleton
import proofs.«145260_j61220463837880_1_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.LstmSpec

/-! ## The tile product's operand indices -/

theorem lhs_tile_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_tile_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_tile_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_tile_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The tile product into the zero accumulator, at row `r` and column `n`: the sum over the inner axis. -/
theorem tile_matmul_apply (a : FVec Ideal S512x512 .bf16) (w : FVec Ideal S512x1024 .bf16) (r : Fin 512) (n : Fin 1024) :
    matmul dot_S512x512_S512x1024_S512x1024_1_0_0_1_n_n none a w (constant S512x1024 .f32 0x00000000#32) (ix2 r n) = ∑ j : Fin 512, a (ix2 r j) * w (ix2 j n) := by
  simp only [matmul]
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 r n) ((ValueIdx.contrEquiv1 dot_S512x512_S512x1024_S512x1024_1_0_0_1_n_n 512 rfl rfl).symm k) = ix2 r k := funext fun a => Fin.ext (by
    match a with
    | ⟨0, _⟩ => exact lhs_tile_0 _ _
    | ⟨1, _⟩ => exact (lhs_tile_1 _ _).trans hk)
  have er : dot_S512x512_S512x1024_S512x1024_1_0_0_1_n_n.rhsIdx (ix2 r n) ((ValueIdx.contrEquiv1 dot_S512x512_S512x1024_S512x1024_1_0_0_1_n_n 512 rfl rfl).symm k) = ix2 k n := funext fun a => Fin.ext (by
    match a with
    | ⟨0, _⟩ => exact (rhs_tile_0 _ _).trans hk
    | ⟨1, _⟩ => exact rhs_tile_1 _ _)
  rw [el, er]

/-! ## The accumulator step of each gate, and the reset value -/

/-- The forget gate's accumulator after the step: what it held plus the tile product. -/
theorem k0_pay8_apply (a : Vec Ideal S512x512 .bf16) (acc : Vec Ideal S512x1024 .f32) (w : Vec Ideal S512x1024 .bf16)
    (r : Fin 512) (n : Fin 1024) :
    k0_pay8 a acc w (ix2 r n) = acc (ix2 r n) + ∑ j : Fin 512, a (ix2 r j) * w (ix2 j n) := by
  unfold k0_pay8 k0_pay7
  simp only [shapeCast_self]
  show acc (ix2 r n) + matmul (F := Ideal) dot_S512x512_S512x1024_S512x1024_1_0_0_1_n_n none a w (constant (F := Ideal) S512x1024 .f32 0x00000000#32) (ix2 r n) = _
  rw [tile_matmul_apply]

/-- The input gate's accumulator after the step. -/
theorem k0_pay9_apply (a : Vec Ideal S512x512 .bf16) (acc : Vec Ideal S512x1024 .f32) (w : Vec Ideal S512x1024 .bf16)
    (r : Fin 512) (n : Fin 1024) :
    k0_pay9 a acc w (ix2 r n) = acc (ix2 r n) + ∑ j : Fin 512, a (ix2 r j) * w (ix2 j n) := by
  unfold k0_pay9 k0_pay7
  simp only [shapeCast_self]
  show acc (ix2 r n) + matmul (F := Ideal) dot_S512x512_S512x1024_S512x1024_1_0_0_1_n_n none a w (constant (F := Ideal) S512x1024 .f32 0x00000000#32) (ix2 r n) = _
  rw [tile_matmul_apply]

/-- The candidate's accumulator after the step. -/
theorem k0_pay10_apply (a : Vec Ideal S512x512 .bf16) (acc : Vec Ideal S512x1024 .f32) (w : Vec Ideal S512x1024 .bf16)
    (r : Fin 512) (n : Fin 1024) :
    k0_pay10 a acc w (ix2 r n) = acc (ix2 r n) + ∑ j : Fin 512, a (ix2 r j) * w (ix2 j n) := by
  unfold k0_pay10 k0_pay7
  simp only [shapeCast_self]
  show acc (ix2 r n) + matmul (F := Ideal) dot_S512x512_S512x1024_S512x1024_1_0_0_1_n_n none a w (constant (F := Ideal) S512x1024 .f32 0x00000000#32) (ix2 r n) = _
  rw [tile_matmul_apply]

/-- The output gate's accumulator after the step (its input tile arrives through the body's first part). -/
theorem k0_pay1_apply (a : Vec Ideal S512x512 .bf16) (acc : Vec Ideal S512x1024 .f32) (w : Vec Ideal S512x1024 .bf16)
    (r : Fin 512) (n : Fin 1024) :
    k0_pay1 (k0_pay7 a) acc w (ix2 r n) = acc (ix2 r n) + ∑ j : Fin 512, a (ix2 r j) * w (ix2 j n) := by
  unfold k0_pay1 k0_pay7
  simp only [shapeCast_self]
  show acc (ix2 r n) + matmul (F := Ideal) dot_S512x512_S512x1024_S512x1024_1_0_0_1_n_n none a w (constant (F := Ideal) S512x1024 .f32 0x00000000#32) (ix2 r n) = _
  rw [tile_matmul_apply]

/-! The reset stores the zero splat. -/

theorem k0_pay3_apply (i : S512x1024.Idx) : (k0_pay3 (F := Ideal)) i = 0 := by
  unfold k0_pay3
  simp only [shapeCast_self]
  exact Ideal.ofBits_zero_f32

theorem k0_pay4_apply (i : S512x1024.Idx) : (k0_pay4 (F := Ideal)) i = 0 := by
  unfold k0_pay4
  simp only [shapeCast_self]
  exact Ideal.ofBits_zero_f32

theorem k0_pay5_apply (i : S512x1024.Idx) : (k0_pay5 (F := Ideal)) i = 0 := by
  unfold k0_pay5
  simp only [shapeCast_self]
  exact Ideal.ofBits_zero_f32

theorem k0_pay6_apply (i : S512x1024.Idx) : (k0_pay6 (F := Ideal)) i = 0 := by
  unfold k0_pay6
  simp only [shapeCast_self]
  exact Ideal.ofBits_zero_f32

/-! ## The output of the last step -/

/-- A one-row bias broadcast over the 512 rows, read at `(r, n)`, is the bias at `(0, n)`. -/
theorem bias_bcast_apply (b : Vec Ideal S1x1024 .f32) (r : Fin 512) (n : Fin 1024) :
    broadcastTo S512x1024 b broadcasts_S1x1024_S512x1024 (ix2 r n) = b (ix2 0 n) :=
  broadcastTo_apply b broadcasts_S1x1024_S512x1024 (ix2 r n) (ix2 0 n) (fun a => by
    match a with
    | ⟨0, _⟩ => show 0 = if (1 : Nat) = 1 then 0 else r.val; rw [if_pos rfl]
    | ⟨1, _⟩ => show n.val = if (1024 : Nat) = 1 then 0 else n.val; rw [if_neg (by decide)])

/-- The stored output at `(r, n)`: the cell update of the old cell value and the four gates' accumulators plus biases. -/
theorem k0_pay2_apply (af : Vec Ideal S512x1024 .f32) (bf : Vec Ideal S1x1024 .f32) (ai : Vec Ideal S512x1024 .f32)
    (bi : Vec Ideal S1x1024 .f32) (ag : Vec Ideal S512x1024 .f32) (bg : Vec Ideal S1x1024 .f32)
    (ao : Vec Ideal S512x1024 .f32) (bo : Vec Ideal S1x1024 .f32) (cc : Vec Ideal S512x1024 .f32) (r : Fin 512) (n : Fin 1024) :
    k0_pay2 af bf ai bi ag bg ao bo cc (ix2 r n)
      = cell (cc (ix2 r n)) (af (ix2 r n) + bf (ix2 0 n)) (ai (ix2 r n) + bi (ix2 0 n)) (ag (ix2 r n) + bg (ix2 0 n))
          (ao (ix2 r n) + bo (ix2 0 n)) := by
  unfold k0_pay2
  show Ideal.tanh (cc (ix2 r n) * Ideal.logistic (af (ix2 r n) + broadcastTo S512x1024 bf broadcasts_S1x1024_S512x1024 (ix2 r n))
        + Ideal.logistic (ai (ix2 r n) + broadcastTo S512x1024 bi broadcasts_S1x1024_S512x1024 (ix2 r n))
          * Ideal.tanh (ag (ix2 r n) + broadcastTo S512x1024 bg broadcasts_S1x1024_S512x1024 (ix2 r n)))
      * Ideal.logistic (ao (ix2 r n) + broadcastTo S512x1024 bo broadcasts_S1x1024_S512x1024 (ix2 r n)) = _
  rw [bias_bcast_apply, bias_bcast_apply, bias_bcast_apply, bias_bcast_apply]
  rfl

end Cert.KernelIdeal.Payload

end
-- ==== Proof.KPieces.lean ====
/-
  What one run of the kernel body leaves behind, case by case, as the body's own pure terms.

  The grid's second coordinate `k` walks the four 512-wide tiles of the reduction axis. At `k = 0` the four
  accumulators are reset to zero and take the first tile's product; at `k = 1, 2` each takes its tile's product
  over what the step before left; at `k = 3` each does the same and the output block is then computed from the
  four updated accumulators. Each statement below names what a store leaves in its buffer: the stored value, with
  every load of a whole buffer read as that buffer's contents and every load that follows a store of the same run
  read as the stored value. They hold at any float instance.
-/
import proofs.«145260_j61220463837880_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

/-- The origin of a rank-2 block. -/
theorem hz : (![0, 0] : Fin 2 → Nat) = fun _ => 0 := funext fun a => by fin_cases a <;> rfl

/-- At the first step of a reduction run the forget gate's accumulator is reset to the zero splat and then takes the
    step over it: the body stores zero, reads it back, and stores the step's result over it. -/
theorem sout0_A_0_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : cond0_0 i) (hc1 : ¬cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay8 x0 (k0_pay3 (F := F)) x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S512x1024) hz, View.readCov_unit_zero (S := S512x1024) _ hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

/-- At a middle step the forget gate's accumulator takes the step over what the step before left in it. -/
theorem sout0_B_0_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : ¬cond0_0 i) (hc1 : ¬cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) (xs0 : Vec F S512x1024 .f32) (xs1 : Vec F S512x1024 .f32) (xs2 : Vec F S512x1024 .f32) (xs3 : Vec F S512x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay8 x0 xs0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

/-- At the last step likewise: the accumulator is updated before the output is computed from it. -/
theorem sout0_C_0_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : ¬cond0_0 i) (hc1 : cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) (xs0 : Vec F S512x1024 .f32) (xs1 : Vec F S512x1024 .f32) (xs2 : Vec F S512x1024 .f32) (xs3 : Vec F S512x1024 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay8 x0 xs0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

/-- At the first step of a reduction run the input gate's accumulator is reset to the zero splat and then takes the
    step over it: the body stores zero, reads it back, and stores the step's result over it. -/
theorem sout0_A_1_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : cond0_0 i) (hc1 : ¬cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay9 x0 (k0_pay4 (F := F)) x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S512x1024) hz, View.readCov_unit_zero (S := S512x1024) _ hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

/-- At a middle step the input gate's accumulator takes the step over what the step before left in it. -/
theorem sout0_B_1_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : ¬cond0_0 i) (hc1 : ¬cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) (xs0 : Vec F S512x1024 .f32) (xs1 : Vec F S512x1024 .f32) (xs2 : Vec F S512x1024 .f32) (xs3 : Vec F S512x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay9 x0 xs1 x2 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

/-- At the last step likewise: the accumulator is updated before the output is computed from it. -/
theorem sout0_C_1_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : ¬cond0_0 i) (hc1 : cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) (xs0 : Vec F S512x1024 .f32) (xs1 : Vec F S512x1024 .f32) (xs2 : Vec F S512x1024 .f32) (xs3 : Vec F S512x1024 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay9 x0 xs1 x2 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

/-- At the first step of a reduction run the candidate's accumulator is reset to the zero splat and then takes the
    step over it: the body stores zero, reads it back, and stores the step's result over it. -/
theorem sout0_A_2_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : cond0_0 i) (hc1 : ¬cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay10 x0 (k0_pay5 (F := F)) x3 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S512x1024) hz, View.readCov_unit_zero (S := S512x1024) _ hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

/-- At a middle step the candidate's accumulator takes the step over what the step before left in it. -/
theorem sout0_B_2_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : ¬cond0_0 i) (hc1 : ¬cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) (xs0 : Vec F S512x1024 .f32) (xs1 : Vec F S512x1024 .f32) (xs2 : Vec F S512x1024 .f32) (xs3 : Vec F S512x1024 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay10 x0 xs2 x3 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

/-- At the last step likewise: the accumulator is updated before the output is computed from it. -/
theorem sout0_C_2_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : ¬cond0_0 i) (hc1 : cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) (xs0 : Vec F S512x1024 .f32) (xs1 : Vec F S512x1024 .f32) (xs2 : Vec F S512x1024 .f32) (xs3 : Vec F S512x1024 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay10 x0 xs2 x3 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

/-- At the first step of a reduction run the output gate's accumulator is reset to the zero splat and then takes the
    step over it: the body stores zero, reads it back, and stores the step's result over it. -/
theorem sout0_A_3_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : cond0_0 i) (hc1 : ¬cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay1 (k0_pay7 x0) (k0_pay6 (F := F)) x4 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S512x1024) hz, View.readCov_unit_zero (S := S512x1024) _ hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

/-- At a middle step the output gate's accumulator takes the step over what the step before left in it. -/
theorem sout0_B_3_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : ¬cond0_0 i) (hc1 : ¬cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) (xs0 : Vec F S512x1024 .f32) (xs1 : Vec F S512x1024 .f32) (xs2 : Vec F S512x1024 .f32) (xs3 : Vec F S512x1024 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay1 (k0_pay7 x0) xs3 x4 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

/-- At the last step likewise: the accumulator is updated before the output is computed from it. -/
theorem sout0_C_3_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : ¬cond0_0 i) (hc1 : cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) (xs0 : Vec F S512x1024 .f32) (xs1 : Vec F S512x1024 .f32) (xs2 : Vec F S512x1024 .f32) (xs3 : Vec F S512x1024 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay1 (k0_pay7 x0) xs3 x4 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

/-- At the last step the output block is the output payload of the four accumulators AS UPDATED AT THIS STEP (each is
    read back after its store), the four bias rows and the old cell state's block. -/
theorem out0_C_10_eq (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x1024 .f32) (harg16 : arg16.IsWhole) (hc0 : ¬cond0_0 i) (hc1 : cond0_1 i) (x0 : Vec F S512x512 .bf16) (x1 : Vec F S512x1024 .bf16) (x2 : Vec F S512x1024 .bf16) (x3 : Vec F S512x1024 .bf16) (x4 : Vec F S512x1024 .bf16) (x5 : Vec F S1x1024 .f32) (x6 : Vec F S1x1024 .f32) (x7 : Vec F S1x1024 .f32) (x8 : Vec F S1x1024 .f32) (x9 : Vec F S512x1024 .f32) (xs0 : Vec F S512x1024 .f32) (xs1 : Vec F S512x1024 .f32) (xs2 : Vec F S512x1024 .f32) (xs3 : Vec F S512x1024 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = k0_pay2 (k0_pay8 x0 xs0 x1) x5 (k0_pay9 x0 xs1 x2) x6 (k0_pay10 x0 xs2 x3) x7 (k0_pay1 (k0_pay7 x0) xs3 x4) x8 x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero hz]
  simp only [View.readCov_unit_zero (S := S512x1024) _ hz, View.readAt_eq_ld, harg2.read_unread, harg3.read_unread, harg4.read_unread, harg5.read_unread,
    harg6.read_unread, harg7.read_unread, harg8.read_unread, harg9.read_unread, harg10.read_unread, harg11.read_unread,
    harg13.read_unread, harg14.read_unread, harg15.read_unread, harg16.read_unread,
    View.ld_unit_zero (S := S512x512) hz, View.ld_unit_zero (S := S512x1024) hz, View.ld_unit_zero (S := S1x1024) hz]

end Cert.KernelIdeal.Pieces

end
-- ==== Proof.KBlocks.lean ====
/-
  What the kernel's windows hold at a grid point, as entries of the arrays the region is launched on.

  The grid has 8 × 4 points, point `t` at batch tile `t / 4` and reduction tile `t mod 4`. The joined input's
  window moves with both coordinates (512 × 512 tiles), each weight window with the reduction tile only
  (512 × 1024 tiles: 512 rows, every column), each bias window not at all, and the old cell state's and the
  output's windows with the batch tile only (512 × 1024 tiles). A tile's entry `(a, b)` is the array's entry
  `(512 · tile row + a, …)`.

  The arrays themselves: @main joins `x` and `h` along the columns and converts the result and the four weight
  matrices to bf16 before the call; over the extended reals a format conversion changes nothing, so the staged
  arrays are the joined array and the weight arguments themselves.
-/
import proofs.«145260_j61220463837880_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The index maps, decided over the 32 points -/

theorem idx_w0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem idx_w1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem idx_w2 : ∀ t : Fin cfg0.N, win0_2.index t (0 : Fin 2) = t.val % 4 ∧ win0_2.index t (1 : Fin 2) = 0 :=
  (by decide +kernel : ∀ t : Fin grid0.N, win0_2.index t (0 : Fin 2) = t.val % 4 ∧ win0_2.index t (1 : Fin 2) = 0)
theorem idx_w3 : ∀ t : Fin cfg0.N, win0_3.index t (0 : Fin 2) = t.val % 4 ∧ win0_3.index t (1 : Fin 2) = 0 :=
  (by decide +kernel : ∀ t : Fin grid0.N, win0_3.index t (0 : Fin 2) = t.val % 4 ∧ win0_3.index t (1 : Fin 2) = 0)
theorem idx_w4 : ∀ t : Fin cfg0.N, win0_4.index t (0 : Fin 2) = t.val % 4 ∧ win0_4.index t (1 : Fin 2) = 0 :=
  (by decide +kernel : ∀ t : Fin grid0.N, win0_4.index t (0 : Fin 2) = t.val % 4 ∧ win0_4.index t (1 : Fin 2) = 0)
theorem idx_w5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_w6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_w7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_w8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_w9 : ∀ t : Fin cfg0.N, win0_9.index t (0 : Fin 2) = t.val / 4 ∧ win0_9.index t (1 : Fin 2) = 0 :=
  (by decide +kernel : ∀ t : Fin grid0.N, win0_9.index t (0 : Fin 2) = t.val / 4 ∧ win0_9.index t (1 : Fin 2) = 0)
theorem idx_w10 : ∀ t : Fin cfg0.N, win0_10.index t (0 : Fin 2) = t.val / 4 ∧ win0_10.index t (1 : Fin 2) = 0 :=
  (by decide +kernel : ∀ t : Fin grid0.N, win0_10.index t (0 : Fin 2) = t.val / 4 ∧ win0_10.index t (1 : Fin 2) = 0)

theorem N32 : cfg0.N = 32 := N_0

/-! ## Tiles read at coordinates -/

/-- The joined input's tile at point `t`, entry `(r, j)`: the staged array's entry at row `512·(t / 4) + r`, column
    `512·(t mod 4) + j`. -/
theorem zTile_at (c : Dev nD) (t : Fin cfg0.N) (r j : Fin 512) (R : Fin 4096) (K : Fin 2048)
    (hR : R.val = 512 * (t.val / 4) + r.val) (hK : K.val = 512 * (t.val % 4) + j.val) :
    (iblk m c 0 t : Vec Ideal S512x512 .bf16) (ix2 r j) = (V m c main_v1 : Vec Ideal S4096x2048 .bf16) (ix2 R K) := by
  obtain ⟨e0, e1⟩ := idx_w0 t
  show V m c main_v1 (((cfg0.win 0).blk t).view.emb (ix2 r j)) = V m c main_v1 (ix2 R K)
  refine congrArg _ (funext fun a => Fin.ext ?_)
  match a with
  | ⟨0, _⟩ => show win0_0.index t (0 : Fin 2) * 512 + 1 * r.val = R.val; omega
  | ⟨1, _⟩ => show win0_0.index t (1 : Fin 2) * 512 + 1 * j.val = K.val; omega

/-- Weight window 1's tile at point `t`, entry `(j, n)`: the staged matrix's entry at row `512·(t mod 4) + j`, column `n`. -/
theorem wTile1_at (c : Dev nD) (t : Fin cfg0.N) (j : Fin 512) (n : Fin 1024) (K : Fin 2048)
    (hK : K.val = 512 * (t.val % 4) + j.val) :
    (iblk m c 1 t : Vec Ideal S512x1024 .bf16) (ix2 j n) = (V m c main_v2 : Vec Ideal S2048x1024 .bf16) (ix2 K n) := by
  obtain ⟨e0, e1⟩ := idx_w1 t
  show V m c main_v2 (((cfg0.win 1).blk t).view.emb (ix2 j n)) = V m c main_v2 (ix2 K n)
  refine congrArg _ (funext fun a => Fin.ext ?_)
  match a with
  | ⟨0, _⟩ => show win0_1.index t (0 : Fin 2) * 512 + 1 * j.val = K.val; omega
  | ⟨1, _⟩ => show win0_1.index t (1 : Fin 2) * 1024 + 1 * n.val = n.val; omega

/-- Weight window 2's tile at point `t`, entry `(j, n)`: the staged matrix's entry at row `512·(t mod 4) + j`, column `n`. -/
theorem wTile2_at (c : Dev nD) (t : Fin cfg0.N) (j : Fin 512) (n : Fin 1024) (K : Fin 2048)
    (hK : K.val = 512 * (t.val % 4) + j.val) :
    (iblk m c 2 t : Vec Ideal S512x1024 .bf16) (ix2 j n) = (V m c main_v3 : Vec Ideal S2048x1024 .bf16) (ix2 K n) := by
  obtain ⟨e0, e1⟩ := idx_w2 t
  show V m c main_v3 (((cfg0.win 2).blk t).view.emb (ix2 j n)) = V m c main_v3 (ix2 K n)
  refine congrArg _ (funext fun a => Fin.ext ?_)
  match a with
  | ⟨0, _⟩ => show win0_2.index t (0 : Fin 2) * 512 + 1 * j.val = K.val; omega
  | ⟨1, _⟩ => show win0_2.index t (1 : Fin 2) * 1024 + 1 * n.val = n.val; omega

/-- Weight window 3's tile at point `t`, entry `(j, n)`: the staged matrix's entry at row `512·(t mod 4) + j`, column `n`. -/
theorem wTile3_at (c : Dev nD) (t : Fin cfg0.N) (j : Fin 512) (n : Fin 1024) (K : Fin 2048)
    (hK : K.val = 512 * (t.val % 4) + j.val) :
    (iblk m c 3 t : Vec Ideal S512x1024 .bf16) (ix2 j n) = (V m c main_v4 : Vec Ideal S2048x1024 .bf16) (ix2 K n) := by
  obtain ⟨e0, e1⟩ := idx_w3 t
  show V m c main_v4 (((cfg0.win 3).blk t).view.emb (ix2 j n)) = V m c main_v4 (ix2 K n)
  refine congrArg _ (funext fun a => Fin.ext ?_)
  match a with
  | ⟨0, _⟩ => show win0_3.index t (0 : Fin 2) * 512 + 1 * j.val = K.val; omega
  | ⟨1, _⟩ => show win0_3.index t (1 : Fin 2) * 1024 + 1 * n.val = n.val; omega

/-- Weight window 4's tile at point `t`, entry `(j, n)`: the staged matrix's entry at row `512·(t mod 4) + j`, column `n`. -/
theorem wTile4_at (c : Dev nD) (t : Fin cfg0.N) (j : Fin 512) (n : Fin 1024) (K : Fin 2048)
    (hK : K.val = 512 * (t.val % 4) + j.val) :
    (iblk m c 4 t : Vec Ideal S512x1024 .bf16) (ix2 j n) = (V m c main_v5 : Vec Ideal S2048x1024 .bf16) (ix2 K n) := by
  obtain ⟨e0, e1⟩ := idx_w4 t
  show V m c main_v5 (((cfg0.win 4).blk t).view.emb (ix2 j n)) = V m c main_v5 (ix2 K n)
  refine congrArg _ (funext fun a => Fin.ext ?_)
  match a with
  | ⟨0, _⟩ => show win0_4.index t (0 : Fin 2) * 512 + 1 * j.val = K.val; omega
  | ⟨1, _⟩ => show win0_4.index t (1 : Fin 2) * 1024 + 1 * n.val = n.val; omega

/-- Bias window 5's block is the whole one-row bias at every point. -/
theorem bRow5_apply (c : Dev nD) (t : Fin cfg0.N) (n : Fin 1024) :
    (iblk m c 5 t : Vec Ideal S1x1024 .f32) (ix2 0 n) = (V m c main_arg4 : Vec Ideal S1x1024 .f32) (ix2 0 n) := by
  obtain ⟨e0, e1⟩ := idx_w5 t
  show V m c main_arg4 (((cfg0.win 5).blk t).view.emb (ix2 0 n)) = V m c main_arg4 _
  refine congrArg _ (funext fun a => Fin.ext ?_)
  match a with
  | ⟨0, _⟩ => show win0_5.index t (0 : Fin 2) * 1 + 1 * 0 = 0; omega
  | ⟨1, _⟩ => show win0_5.index t (1 : Fin 2) * 1024 + 1 * n.val = n.val; omega

/-- Bias window 6's block is the whole one-row bias at every point. -/
theorem bRow6_apply (c : Dev nD) (t : Fin cfg0.N) (n : Fin 1024) :
    (iblk m c 6 t : Vec Ideal S1x1024 .f32) (ix2 0 n) = (V m c main_arg6 : Vec Ideal S1x1024 .f32) (ix2 0 n) := by
  obtain ⟨e0, e1⟩ := idx_w6 t
  show V m c main_arg6 (((cfg0.win 6).blk t).view.emb (ix2 0 n)) = V m c main_arg6 _
  refine congrArg _ (funext fun a => Fin.ext ?_)
  match a with
  | ⟨0, _⟩ => show win0_6.index t (0 : Fin 2) * 1 + 1 * 0 = 0; omega
  | ⟨1, _⟩ => show win0_6.index t (1 : Fin 2) * 1024 + 1 * n.val = n.val; omega

/-- Bias window 7's block is the whole one-row bias at every point. -/
theorem bRow7_apply (c : Dev nD) (t : Fin cfg0.N) (n : Fin 1024) :
    (iblk m c 7 t : Vec Ideal S1x1024 .f32) (ix2 0 n) = (V m c main_arg8 : Vec Ideal S1x1024 .f32) (ix2 0 n) := by
  obtain ⟨e0, e1⟩ := idx_w7 t
  show V m c main_arg8 (((cfg0.win 7).blk t).view.emb (ix2 0 n)) = V m c main_arg8 _
  refine congrArg _ (funext fun a => Fin.ext ?_)
  match a with
  | ⟨0, _⟩ => show win0_7.index t (0 : Fin 2) * 1 + 1 * 0 = 0; omega
  | ⟨1, _⟩ => show win0_7.index t (1 : Fin 2) * 1024 + 1 * n.val = n.val; omega

/-- Bias window 8's block is the whole one-row bias at every point. -/
theorem bRow8_apply (c : Dev nD) (t : Fin cfg0.N) (n : Fin 1024) :
    (iblk m c 8 t : Vec Ideal S1x1024 .f32) (ix2 0 n) = (V m c main_arg10 : Vec Ideal S1x1024 .f32) (ix2 0 n) := by
  obtain ⟨e0, e1⟩ := idx_w8 t
  show V m c main_arg10 (((cfg0.win 8).blk t).view.emb (ix2 0 n)) = V m c main_arg10 _
  refine congrArg _ (funext fun a => Fin.ext ?_)
  match a with
  | ⟨0, _⟩ => show win0_8.index t (0 : Fin 2) * 1 + 1 * 0 = 0; omega
  | ⟨1, _⟩ => show win0_8.index t (1 : Fin 2) * 1024 + 1 * n.val = n.val; omega

/-- The old cell state's tile at point `t`, entry `(r, n)`: the array's entry at row `512·(t / 4) + r`, column `n`. -/
theorem cTile_at (c : Dev nD) (t : Fin cfg0.N) (r : Fin 512) (n : Fin 1024) (R : Fin 4096)
    (hR : R.val = 512 * (t.val / 4) + r.val) :
    (iblk m c 9 t : Vec Ideal S512x1024 .f32) (ix2 r n) = (V m c main_arg2 : Vec Ideal S4096x1024 .f32) (ix2 R n) := by
  obtain ⟨e0, e1⟩ := idx_w9 t
  show V m c main_arg2 (((cfg0.win 9).blk t).view.emb (ix2 r n)) = V m c main_arg2 (ix2 R n)
  refine congrArg _ (funext fun a => Fin.ext ?_)
  match a with
  | ⟨0, _⟩ => show win0_9.index t (0 : Fin 2) * 512 + 1 * r.val = R.val; omega
  | ⟨1, _⟩ => show win0_9.index t (1 : Fin 2) * 1024 + 1 * n.val = n.val; omega

/-- The output's block at point `t` sits at rows `512·(t / 4) …`, every column. -/
theorem oBlock_emb (t : Fin cfg0.N) (r : Fin 512) (n : Fin 1024) (R : Fin 4096)
    (hR : R.val = 512 * (t.val / 4) + r.val) :
    ((cfg0.win 10).blk t).view.emb (ix2 r n) = (ix2 R n : S4096x1024.Idx) := by
  obtain ⟨e0, e1⟩ := idx_w10 t
  refine funext fun a => Fin.ext ?_
  match a with
  | ⟨0, _⟩ => show win0_10.index t (0 : Fin 2) * 512 + 1 * r.val = R.val; omega
  | ⟨1, _⟩ => show win0_10.index t (1 : Fin 2) * 1024 + 1 * n.val = n.val; omega

/-! ## The staged arrays -/

/-- `x` and `h` joined along the columns, as @main's first operation writes it. -/
abbrev joined (a b : (⟨S4096x1024, .f32⟩ : BufTy).Contents (Elt Ideal)) : (⟨S4096x2048, .f32⟩ : BufTy).Contents (Elt Ideal) :=
  concatenate S4096x2048 1 [⟨S4096x1024, a⟩, ⟨S4096x1024, b⟩] concatenates_S4096x1024_S4096x1024_S4096x2048_d1

/-- The staged joined input is the joined array: the conversion to bf16 is the identity on the extended reals. -/
theorem zArr_eq (c : Dev nD) :
    (V m c main_v1 : S4096x2048.Idx → EReal)
      = joined (m ((c : Thread nD τ).loc main_arg0)) (m ((c : Thread nD τ).loc main_arg1)) := by
  dsimp only [Gen.V, Gen.hostOps0]
  after_results
  rfl

/-- Staged weight matrix 1 is the weight argument itself. -/
theorem wArr1_eq (c : Dev nD) :
    (V m c main_v2 : S2048x1024.Idx → EReal) = m ((c : Thread nD τ).loc main_arg3) := by
  dsimp only [Gen.V, Gen.hostOps0]
  after_results
  rfl

/-- Staged weight matrix 2 is the weight argument itself. -/
theorem wArr2_eq (c : Dev nD) :
    (V m c main_v3 : S2048x1024.Idx → EReal) = m ((c : Thread nD τ).loc main_arg5) := by
  dsimp only [Gen.V, Gen.hostOps0]
  after_results
  rfl

/-- Staged weight matrix 3 is the weight argument itself. -/
theorem wArr3_eq (c : Dev nD) :
    (V m c main_v4 : S2048x1024.Idx → EReal) = m ((c : Thread nD τ).loc main_arg7) := by
  dsimp only [Gen.V, Gen.hostOps0]
  after_results
  rfl

/-- Staged weight matrix 4 is the weight argument itself. -/
theorem wArr4_eq (c : Dev nD) :
    (V m c main_v5 : S2048x1024.Idx → EReal) = m ((c : Thread nD τ).loc main_arg9) := by
  dsimp only [Gen.V, Gen.hostOps0]
  after_results
  rfl

end Cert.KernelIdeal.Blocks

end
-- ==== Proof.KValue.lean ====
/-
  The kernel computes the specification.

  A reduction run is four consecutive grid points `4q, 4q + 1, 4q + 2, 4q + 3`: one batch tile `q`, the four
  512-wide tiles of the reduction axis in order. Each gate's accumulator is reset to zero at the run's first point
  and gains, at every point of the run, the product of the point's 512 × 512 input tile with the gate's 512 × 1024
  weight tile. So after the run's last point it holds, at row `r` and column `n`, the sum of four 512-term partial
  dot products, which is the whole 2048-term dot product of row `512·q + r` of the joined input with column `n` of
  the gate's weights: sums on the extended reals may be regrouped freely. The last point then stores the cell update
  of those four dot products plus the biases and the old cell state's tile, and that block is written back to rows
  `512·q …` of the result. The eight batch tiles cover the result's 4096 rows.
-/
import proofs.«145260_j61220463837880_1_alg».proof.Proof.Gen.KernelIdeal.Value
import proofs.«145260_j61220463837880_1_alg».proof.Proof.Spec
import proofs.«145260_j61220463837880_1_alg».proof.Proof.KPayload
import proofs.«145260_j61220463837880_1_alg».proof.Proof.KPieces
import proofs.«145260_j61220463837880_1_alg».proof.Proof.KBlocks

set_option maxRecDepth 16384

noncomputable section

namespace Cert.KernelIdeal.HandValue

open Cert.KernelIdeal Cert.KernelIdeal.Gen Cert.KernelIdeal.Value Cert.KernelIdeal.Payload Cert.KernelIdeal.Pieces
open Cert.KernelIdeal.Blocks Cert.LstmSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The tiles and the staged arrays, at their literal types -/

/-- The joined input's tile at a point. -/
abbrev zTile (c : Dev nD) (t : Fin cfg0.N) : Vec Ideal S512x512 .bf16 := iblk m c 0 t
/-- The forget gate's weight tile at a point. -/
abbrev wTile0 (c : Dev nD) (t : Fin cfg0.N) : Vec Ideal S512x1024 .bf16 := iblk m c 1 t
/-- The input gate's weight tile at a point. -/
abbrev wTile1 (c : Dev nD) (t : Fin cfg0.N) : Vec Ideal S512x1024 .bf16 := iblk m c 2 t
/-- The candidate's weight tile at a point. -/
abbrev wTile2 (c : Dev nD) (t : Fin cfg0.N) : Vec Ideal S512x1024 .bf16 := iblk m c 3 t
/-- The output gate's weight tile at a point. -/
abbrev wTile3 (c : Dev nD) (t : Fin cfg0.N) : Vec Ideal S512x1024 .bf16 := iblk m c 4 t
/-- The staged joined input. -/
abbrev zArr (c : Dev nD) : Vec Ideal S4096x2048 .bf16 := V m c main_v1
/-- The forget gate's staged weights. -/
abbrev wArr0 (c : Dev nD) : Vec Ideal S2048x1024 .bf16 := V m c main_v2
/-- The input gate's staged weights. -/
abbrev wArr1 (c : Dev nD) : Vec Ideal S2048x1024 .bf16 := V m c main_v3
/-- The candidate's staged weights. -/
abbrev wArr2 (c : Dev nD) : Vec Ideal S2048x1024 .bf16 := V m c main_v4
/-- The output gate's staged weights. -/
abbrev wArr3 (c : Dev nD) : Vec Ideal S2048x1024 .bf16 := V m c main_v5

/-! ## A point's addend to each accumulator, and the accumulator's step -/

/-- What grid point `n` adds to the forget gate's accumulator at row `r`, column `q`: the 512-term partial dot product of
    the point's input tile with the gate's weight tile (zero for a number past the grid, so that it is a function of
    every natural number). -/
def tileDot0 (c : Dev nD) (n : ℕ) (r : Fin 512) (q : Fin 1024) : EReal :=
  if hb : n < cfg0.N then ∑ j : Fin 512, (zTile m c ⟨n, hb⟩) (ix2 r j) * (wTile0 m c ⟨n, hb⟩) (ix2 j q) else 0

theorem tileDot0_lt (c : Dev nD) (n : ℕ) (hb : n < cfg0.N) (r : Fin 512) (q : Fin 1024) :
    tileDot0 m c n r q = ∑ j : Fin 512, (zTile m c ⟨n, hb⟩) (ix2 r j) * (wTile0 m c ⟨n, hb⟩) (ix2 j q) := dif_pos hb

/-- The forget gate's accumulator after point `n`, over what the point before left (`acc`): at the first point of a run
    zero plus the point's addend, elsewhere `acc` plus it. -/
theorem scAt0_0_apply (c : Dev nD) (n : ℕ) (hb : n < cfg0.N) (acc : Vec Ideal S512x1024 .f32) (r : Fin 512) (q : Fin 1024) :
    scAt0_0 m c n hb acc (ix2 r q) = (if n % 4 = 0 then 0 else acc (ix2 r q)) + tileDot0 m c n r q := by
  rw [tileDot0_lt m c n hb]
  unfold scAt0_0
  by_cases h0 : n % 4 = 0
  · have h1 : ¬n % 4 = 3 := by omega
    rw [dif_pos h0, dif_neg h1, if_pos h0]
    refine (congrFun (sout0_A_0_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))) (ix2 r q)).trans ?_
    refine (k0_pay8_apply (iblk m c 0 (⟨n, hb⟩ : Fin cfg0.N)) (k0_pay3 (F := Ideal)) (iblk m c 1 (⟨n, hb⟩ : Fin cfg0.N)) r q).trans ?_
    rw [k0_pay3_apply]
  · rw [dif_neg h0, if_neg h0]
    by_cases h1 : n % 4 = 3
    · rw [dif_pos h1]
      refine (congrFun (sout0_C_0_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2) (ix2 r q)).trans ?_
      exact k0_pay8_apply (iblk m c 0 (⟨n, hb⟩ : Fin cfg0.N)) acc (iblk m c 1 (⟨n, hb⟩ : Fin cfg0.N)) r q
    · rw [dif_neg h1]
      refine (congrFun (sout0_B_0_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2) (ix2 r q)).trans ?_
      exact k0_pay8_apply (iblk m c 0 (⟨n, hb⟩ : Fin cfg0.N)) acc (iblk m c 1 (⟨n, hb⟩ : Fin cfg0.N)) r q

/-- What grid point `n` adds to the input gate's accumulator at row `r`, column `q`: the 512-term partial dot product of
    the point's input tile with the gate's weight tile (zero for a number past the grid, so that it is a function of
    every natural number). -/
def tileDot1 (c : Dev nD) (n : ℕ) (r : Fin 512) (q : Fin 1024) : EReal :=
  if hb : n < cfg0.N then ∑ j : Fin 512, (zTile m c ⟨n, hb⟩) (ix2 r j) * (wTile1 m c ⟨n, hb⟩) (ix2 j q) else 0

theorem tileDot1_lt (c : Dev nD) (n : ℕ) (hb : n < cfg0.N) (r : Fin 512) (q : Fin 1024) :
    tileDot1 m c n r q = ∑ j : Fin 512, (zTile m c ⟨n, hb⟩) (ix2 r j) * (wTile1 m c ⟨n, hb⟩) (ix2 j q) := dif_pos hb

/-- The input gate's accumulator after point `n`, over what the point before left (`acc`): at the first point of a run
    zero plus the point's addend, elsewhere `acc` plus it. -/
theorem scAt0_1_apply (c : Dev nD) (n : ℕ) (hb : n < cfg0.N) (acc : Vec Ideal S512x1024 .f32) (r : Fin 512) (q : Fin 1024) :
    scAt0_1 m c n hb acc (ix2 r q) = (if n % 4 = 0 then 0 else acc (ix2 r q)) + tileDot1 m c n r q := by
  rw [tileDot1_lt m c n hb]
  unfold scAt0_1
  by_cases h0 : n % 4 = 0
  · have h1 : ¬n % 4 = 3 := by omega
    rw [dif_pos h0, dif_neg h1, if_pos h0]
    refine (congrFun (sout0_A_1_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))) (ix2 r q)).trans ?_
    refine (k0_pay9_apply (iblk m c 0 (⟨n, hb⟩ : Fin cfg0.N)) (k0_pay4 (F := Ideal)) (iblk m c 2 (⟨n, hb⟩ : Fin cfg0.N)) r q).trans ?_
    rw [k0_pay4_apply]
  · rw [dif_neg h0, if_neg h0]
    by_cases h1 : n % 4 = 3
    · rw [dif_pos h1]
      refine (congrFun (sout0_C_1_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2) (ix2 r q)).trans ?_
      exact k0_pay9_apply (iblk m c 0 (⟨n, hb⟩ : Fin cfg0.N)) acc (iblk m c 2 (⟨n, hb⟩ : Fin cfg0.N)) r q
    · rw [dif_neg h1]
      refine (congrFun (sout0_B_1_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2) (ix2 r q)).trans ?_
      exact k0_pay9_apply (iblk m c 0 (⟨n, hb⟩ : Fin cfg0.N)) acc (iblk m c 2 (⟨n, hb⟩ : Fin cfg0.N)) r q

/-- What grid point `n` adds to the candidate's accumulator at row `r`, column `q`: the 512-term partial dot product of
    the point's input tile with the gate's weight tile (zero for a number past the grid, so that it is a function of
    every natural number). -/
def tileDot2 (c : Dev nD) (n : ℕ) (r : Fin 512) (q : Fin 1024) : EReal :=
  if hb : n < cfg0.N then ∑ j : Fin 512, (zTile m c ⟨n, hb⟩) (ix2 r j) * (wTile2 m c ⟨n, hb⟩) (ix2 j q) else 0

theorem tileDot2_lt (c : Dev nD) (n : ℕ) (hb : n < cfg0.N) (r : Fin 512) (q : Fin 1024) :
    tileDot2 m c n r q = ∑ j : Fin 512, (zTile m c ⟨n, hb⟩) (ix2 r j) * (wTile2 m c ⟨n, hb⟩) (ix2 j q) := dif_pos hb

/-- The candidate's accumulator after point `n`, over what the point before left (`acc`): at the first point of a run
    zero plus the point's addend, elsewhere `acc` plus it. -/
theorem scAt0_2_apply (c : Dev nD) (n : ℕ) (hb : n < cfg0.N) (acc : Vec Ideal S512x1024 .f32) (r : Fin 512) (q : Fin 1024) :
    scAt0_2 m c n hb acc (ix2 r q) = (if n % 4 = 0 then 0 else acc (ix2 r q)) + tileDot2 m c n r q := by
  rw [tileDot2_lt m c n hb]
  unfold scAt0_2
  by_cases h0 : n % 4 = 0
  · have h1 : ¬n % 4 = 3 := by omega
    rw [dif_pos h0, dif_neg h1, if_pos h0]
    refine (congrFun (sout0_A_2_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))) (ix2 r q)).trans ?_
    refine (k0_pay10_apply (iblk m c 0 (⟨n, hb⟩ : Fin cfg0.N)) (k0_pay5 (F := Ideal)) (iblk m c 3 (⟨n, hb⟩ : Fin cfg0.N)) r q).trans ?_
    rw [k0_pay5_apply]
  · rw [dif_neg h0, if_neg h0]
    by_cases h1 : n % 4 = 3
    · rw [dif_pos h1]
      refine (congrFun (sout0_C_2_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2) (ix2 r q)).trans ?_
      exact k0_pay10_apply (iblk m c 0 (⟨n, hb⟩ : Fin cfg0.N)) acc (iblk m c 3 (⟨n, hb⟩ : Fin cfg0.N)) r q
    · rw [dif_neg h1]
      refine (congrFun (sout0_B_2_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2) (ix2 r q)).trans ?_
      exact k0_pay10_apply (iblk m c 0 (⟨n, hb⟩ : Fin cfg0.N)) acc (iblk m c 3 (⟨n, hb⟩ : Fin cfg0.N)) r q

/-- What grid point `n` adds to the output gate's accumulator at row `r`, column `q`: the 512-term partial dot product of
    the point's input tile with the gate's weight tile (zero for a number past the grid, so that it is a function of
    every natural number). -/
def tileDot3 (c : Dev nD) (n : ℕ) (r : Fin 512) (q : Fin 1024) : EReal :=
  if hb : n < cfg0.N then ∑ j : Fin 512, (zTile m c ⟨n, hb⟩) (ix2 r j) * (wTile3 m c ⟨n, hb⟩) (ix2 j q) else 0

theorem tileDot3_lt (c : Dev nD) (n : ℕ) (hb : n < cfg0.N) (r : Fin 512) (q : Fin 1024) :
    tileDot3 m c n r q = ∑ j : Fin 512, (zTile m c ⟨n, hb⟩) (ix2 r j) * (wTile3 m c ⟨n, hb⟩) (ix2 j q) := dif_pos hb

/-- The output gate's accumulator after point `n`, over what the point before left (`acc`): at the first point of a run
    zero plus the point's addend, elsewhere `acc` plus it. -/
theorem scAt0_3_apply (c : Dev nD) (n : ℕ) (hb : n < cfg0.N) (acc : Vec Ideal S512x1024 .f32) (r : Fin 512) (q : Fin 1024) :
    scAt0_3 m c n hb acc (ix2 r q) = (if n % 4 = 0 then 0 else acc (ix2 r q)) + tileDot3 m c n r q := by
  rw [tileDot3_lt m c n hb]
  unfold scAt0_3
  by_cases h0 : n % 4 = 0
  · have h1 : ¬n % 4 = 3 := by omega
    rw [dif_pos h0, dif_neg h1, if_pos h0]
    refine (congrFun (sout0_A_3_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))) (ix2 r q)).trans ?_
    refine (k0_pay1_apply (iblk m c 0 (⟨n, hb⟩ : Fin cfg0.N)) (k0_pay6 (F := Ideal)) (iblk m c 4 (⟨n, hb⟩ : Fin cfg0.N)) r q).trans ?_
    rw [k0_pay6_apply]
  · rw [dif_neg h0, if_neg h0]
    by_cases h1 : n % 4 = 3
    · rw [dif_pos h1]
      refine (congrFun (sout0_C_3_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc) (ix2 r q)).trans ?_
      exact k0_pay1_apply (iblk m c 0 (⟨n, hb⟩ : Fin cfg0.N)) acc (iblk m c 4 (⟨n, hb⟩ : Fin cfg0.N)) r q
    · rw [dif_neg h1]
      refine (congrFun (sout0_B_3_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc) (ix2 r q)).trans ?_
      exact k0_pay1_apply (iblk m c 0 (⟨n, hb⟩ : Fin cfg0.N)) acc (iblk m c 4 (⟨n, hb⟩ : Fin cfg0.N)) r q

/-! ## An accumulator at the last point of a run: the whole dot product -/

/-- After the last point of a run the forget gate's accumulator is the sum of the run's four addends. -/
theorem acc0_last (c : Dev nD) (t : Fin cfg0.N) (h1 : t.val % 4 = 3) (r : Fin 512) (n : Fin 1024) :
    (outsAt0 m c t.val t.isLt).2.1 (ix2 r n) = ∑ s ∈ Finset.range 4, tileDot0 m c (4 * (t.val / 4) + s) r n := by
  rw [soutsAt0_0_eq m c t]
  have gen : ∀ (j : ℕ) (hj : j = 3) (h : 4 * (t.val / 4) + j < cfg0.N),
      Pipeline.accAt (fun n h => scAt0_0 m c n h (VS0_0.read (Elt Ideal) VS0_0.junk)) (scAt0_0 m c) (4 * (t.val / 4)) j h (ix2 r n)
        = ∑ s ∈ Finset.range 4, tileDot0 m c (4 * (t.val / 4) + s) r n := by
    intro j hj h
    subst hj
    refine (Pipeline.accAt_add_apply (ι := S512x1024.Idx) (β := EReal)
      (fun n h => scAt0_0 m c n h (VS0_0.read (Elt Ideal) VS0_0.junk)) (scAt0_0 m c) (fun _ => 0)
      (fun n i => tileDot0 m c n (i 0) (i 1)) (4 * (t.val / 4)) 3
      (fun h i => by
        obtain ⟨r', q', rfl⟩ : ∃ (r' : Fin 512) (q' : Fin 1024), i = ix2 r' q' := ⟨i 0, i 1, eq_ix2 i⟩
        show _ = (0 : EReal) + tileDot0 m c (4 * (t.val / 4)) r' q'
        rw [scAt0_0_apply, if_pos (by omega)])
      (fun n h acc i hlt hle => by
        obtain ⟨r', q', rfl⟩ : ∃ (r' : Fin 512) (q' : Fin 1024), i = ix2 r' q' := ⟨i 0, i 1, eq_ix2 i⟩
        show _ = acc (ix2 r' q') + tileDot0 m c n r' q'
        rw [scAt0_0_apply, if_neg (by omega)])
      3 (le_refl 3) h (ix2 r n)).trans ?_
    show (0 : EReal) + ∑ s ∈ Finset.range (3 + 1), tileDot0 m c (4 * (t.val / 4) + s) r n = _
    rw [zero_add]
  exact gen _ h1 _

/-- … which is the whole dot product of row `R = 512·(t / 4) + r` of the staged joined input with column `n` of the
    forget gate's staged weights: each addend is 512 consecutive terms of it. -/
theorem gate0_last (c : Dev nD) (t : Fin cfg0.N) (h1 : t.val % 4 = 3) (r : Fin 512) (n : Fin 1024) (R : Fin 4096)
    (hR : R.val = 512 * (t.val / 4) + r.val) :
    (outsAt0 m c t.val t.isLt).2.1 (ix2 r n) = ∑ k : Fin 2048, (zArr m c) (ix2 R k) * (wArr0 m c) (ix2 k n) := by
  rw [acc0_last m c t h1 r n]
  refine (dot_blocks (zArr m c) (wArr0 m c) R n (fun s => tileDot0 m c (4 * (t.val / 4) + s) r n) (fun s hs => ?_)).symm
  have hN := N32
  have ht := t.isLt
  have hb : 4 * (t.val / 4) + s < cfg0.N := by omega
  show tileDot0 m c (4 * (t.val / 4) + s) r n = _
  rw [tileDot0_lt m c _ hb, Finset.sum_range]
  refine Finset.sum_congr rfl fun j _ => ?_
  have hj := j.isLt
  have hk : 512 * s + j.val < 2048 := by omega
  rw [dotTerm_lt _ _ R n _ hk]
  exact congrArg₂ (· * ·)
    (zTile_at m c ⟨4 * (t.val / 4) + s, hb⟩ r j R ⟨512 * s + j.val, hk⟩
      (by show R.val = 512 * ((4 * (t.val / 4) + s) / 4) + r.val; omega)
      (by show 512 * s + j.val = 512 * ((4 * (t.val / 4) + s) % 4) + j.val; omega))
    (wTile1_at m c ⟨4 * (t.val / 4) + s, hb⟩ j n ⟨512 * s + j.val, hk⟩
      (by show 512 * s + j.val = 512 * ((4 * (t.val / 4) + s) % 4) + j.val; omega))

/-- After the last point of a run the input gate's accumulator is the sum of the run's four addends. -/
theorem acc1_last (c : Dev nD) (t : Fin cfg0.N) (h1 : t.val % 4 = 3) (r : Fin 512) (n : Fin 1024) :
    (outsAt0 m c t.val t.isLt).2.2.1 (ix2 r n) = ∑ s ∈ Finset.range 4, tileDot1 m c (4 * (t.val / 4) + s) r n := by
  rw [soutsAt0_1_eq m c t]
  have gen : ∀ (j : ℕ) (hj : j = 3) (h : 4 * (t.val / 4) + j < cfg0.N),
      Pipeline.accAt (fun n h => scAt0_1 m c n h (VS0_1.read (Elt Ideal) VS0_1.junk)) (scAt0_1 m c) (4 * (t.val / 4)) j h (ix2 r n)
        = ∑ s ∈ Finset.range 4, tileDot1 m c (4 * (t.val / 4) + s) r n := by
    intro j hj h
    subst hj
    refine (Pipeline.accAt_add_apply (ι := S512x1024.Idx) (β := EReal)
      (fun n h => scAt0_1 m c n h (VS0_1.read (Elt Ideal) VS0_1.junk)) (scAt0_1 m c) (fun _ => 0)
      (fun n i => tileDot1 m c n (i 0) (i 1)) (4 * (t.val / 4)) 3
      (fun h i => by
        obtain ⟨r', q', rfl⟩ : ∃ (r' : Fin 512) (q' : Fin 1024), i = ix2 r' q' := ⟨i 0, i 1, eq_ix2 i⟩
        show _ = (0 : EReal) + tileDot1 m c (4 * (t.val / 4)) r' q'
        rw [scAt0_1_apply, if_pos (by omega)])
      (fun n h acc i hlt hle => by
        obtain ⟨r', q', rfl⟩ : ∃ (r' : Fin 512) (q' : Fin 1024), i = ix2 r' q' := ⟨i 0, i 1, eq_ix2 i⟩
        show _ = acc (ix2 r' q') + tileDot1 m c n r' q'
        rw [scAt0_1_apply, if_neg (by omega)])
      3 (le_refl 3) h (ix2 r n)).trans ?_
    show (0 : EReal) + ∑ s ∈ Finset.range (3 + 1), tileDot1 m c (4 * (t.val / 4) + s) r n = _
    rw [zero_add]
  exact gen _ h1 _

/-- … which is the whole dot product of row `R = 512·(t / 4) + r` of the staged joined input with column `n` of the
    input gate's staged weights: each addend is 512 consecutive terms of it. -/
theorem gate1_last (c : Dev nD) (t : Fin cfg0.N) (h1 : t.val % 4 = 3) (r : Fin 512) (n : Fin 1024) (R : Fin 4096)
    (hR : R.val = 512 * (t.val / 4) + r.val) :
    (outsAt0 m c t.val t.isLt).2.2.1 (ix2 r n) = ∑ k : Fin 2048, (zArr m c) (ix2 R k) * (wArr1 m c) (ix2 k n) := by
  rw [acc1_last m c t h1 r n]
  refine (dot_blocks (zArr m c) (wArr1 m c) R n (fun s => tileDot1 m c (4 * (t.val / 4) + s) r n) (fun s hs => ?_)).symm
  have hN := N32
  have ht := t.isLt
  have hb : 4 * (t.val / 4) + s < cfg0.N := by omega
  show tileDot1 m c (4 * (t.val / 4) + s) r n = _
  rw [tileDot1_lt m c _ hb, Finset.sum_range]
  refine Finset.sum_congr rfl fun j _ => ?_
  have hj := j.isLt
  have hk : 512 * s + j.val < 2048 := by omega
  rw [dotTerm_lt _ _ R n _ hk]
  exact congrArg₂ (· * ·)
    (zTile_at m c ⟨4 * (t.val / 4) + s, hb⟩ r j R ⟨512 * s + j.val, hk⟩
      (by show R.val = 512 * ((4 * (t.val / 4) + s) / 4) + r.val; omega)
      (by show 512 * s + j.val = 512 * ((4 * (t.val / 4) + s) % 4) + j.val; omega))
    (wTile2_at m c ⟨4 * (t.val / 4) + s, hb⟩ j n ⟨512 * s + j.val, hk⟩
      (by show 512 * s + j.val = 512 * ((4 * (t.val / 4) + s) % 4) + j.val; omega))

/-- After the last point of a run the candidate's accumulator is the sum of the run's four addends. -/
theorem acc2_last (c : Dev nD) (t : Fin cfg0.N) (h1 : t.val % 4 = 3) (r : Fin 512) (n : Fin 1024) :
    (outsAt0 m c t.val t.isLt).2.2.2.1 (ix2 r n) = ∑ s ∈ Finset.range 4, tileDot2 m c (4 * (t.val / 4) + s) r n := by
  rw [soutsAt0_2_eq m c t]
  have gen : ∀ (j : ℕ) (hj : j = 3) (h : 4 * (t.val / 4) + j < cfg0.N),
      Pipeline.accAt (fun n h => scAt0_2 m c n h (VS0_2.read (Elt Ideal) VS0_2.junk)) (scAt0_2 m c) (4 * (t.val / 4)) j h (ix2 r n)
        = ∑ s ∈ Finset.range 4, tileDot2 m c (4 * (t.val / 4) + s) r n := by
    intro j hj h
    subst hj
    refine (Pipeline.accAt_add_apply (ι := S512x1024.Idx) (β := EReal)
      (fun n h => scAt0_2 m c n h (VS0_2.read (Elt Ideal) VS0_2.junk)) (scAt0_2 m c) (fun _ => 0)
      (fun n i => tileDot2 m c n (i 0) (i 1)) (4 * (t.val / 4)) 3
      (fun h i => by
        obtain ⟨r', q', rfl⟩ : ∃ (r' : Fin 512) (q' : Fin 1024), i = ix2 r' q' := ⟨i 0, i 1, eq_ix2 i⟩
        show _ = (0 : EReal) + tileDot2 m c (4 * (t.val / 4)) r' q'
        rw [scAt0_2_apply, if_pos (by omega)])
      (fun n h acc i hlt hle => by
        obtain ⟨r', q', rfl⟩ : ∃ (r' : Fin 512) (q' : Fin 1024), i = ix2 r' q' := ⟨i 0, i 1, eq_ix2 i⟩
        show _ = acc (ix2 r' q') + tileDot2 m c n r' q'
        rw [scAt0_2_apply, if_neg (by omega)])
      3 (le_refl 3) h (ix2 r n)).trans ?_
    show (0 : EReal) + ∑ s ∈ Finset.range (3 + 1), tileDot2 m c (4 * (t.val / 4) + s) r n = _
    rw [zero_add]
  exact gen _ h1 _

/-- … which is the whole dot product of row `R = 512·(t / 4) + r` of the staged joined input with column `n` of the
    candidate's staged weights: each addend is 512 consecutive terms of it. -/
theorem gate2_last (c : Dev nD) (t : Fin cfg0.N) (h1 : t.val % 4 = 3) (r : Fin 512) (n : Fin 1024) (R : Fin 4096)
    (hR : R.val = 512 * (t.val / 4) + r.val) :
    (outsAt0 m c t.val t.isLt).2.2.2.1 (ix2 r n) = ∑ k : Fin 2048, (zArr m c) (ix2 R k) * (wArr2 m c) (ix2 k n) := by
  rw [acc2_last m c t h1 r n]
  refine (dot_blocks (zArr m c) (wArr2 m c) R n (fun s => tileDot2 m c (4 * (t.val / 4) + s) r n) (fun s hs => ?_)).symm
  have hN := N32
  have ht := t.isLt
  have hb : 4 * (t.val / 4) + s < cfg0.N := by omega
  show tileDot2 m c (4 * (t.val / 4) + s) r n = _
  rw [tileDot2_lt m c _ hb, Finset.sum_range]
  refine Finset.sum_congr rfl fun j _ => ?_
  have hj := j.isLt
  have hk : 512 * s + j.val < 2048 := by omega
  rw [dotTerm_lt _ _ R n _ hk]
  exact congrArg₂ (· * ·)
    (zTile_at m c ⟨4 * (t.val / 4) + s, hb⟩ r j R ⟨512 * s + j.val, hk⟩
      (by show R.val = 512 * ((4 * (t.val / 4) + s) / 4) + r.val; omega)
      (by show 512 * s + j.val = 512 * ((4 * (t.val / 4) + s) % 4) + j.val; omega))
    (wTile3_at m c ⟨4 * (t.val / 4) + s, hb⟩ j n ⟨512 * s + j.val, hk⟩
      (by show 512 * s + j.val = 512 * ((4 * (t.val / 4) + s) % 4) + j.val; omega))

/-- After the last point of a run the output gate's accumulator is the sum of the run's four addends. -/
theorem acc3_last (c : Dev nD) (t : Fin cfg0.N) (h1 : t.val % 4 = 3) (r : Fin 512) (n : Fin 1024) :
    (outsAt0 m c t.val t.isLt).2.2.2.2 (ix2 r n) = ∑ s ∈ Finset.range 4, tileDot3 m c (4 * (t.val / 4) + s) r n := by
  rw [soutsAt0_3_eq m c t]
  have gen : ∀ (j : ℕ) (hj : j = 3) (h : 4 * (t.val / 4) + j < cfg0.N),
      Pipeline.accAt (fun n h => scAt0_3 m c n h (VS0_3.read (Elt Ideal) VS0_3.junk)) (scAt0_3 m c) (4 * (t.val / 4)) j h (ix2 r n)
        = ∑ s ∈ Finset.range 4, tileDot3 m c (4 * (t.val / 4) + s) r n := by
    intro j hj h
    subst hj
    refine (Pipeline.accAt_add_apply (ι := S512x1024.Idx) (β := EReal)
      (fun n h => scAt0_3 m c n h (VS0_3.read (Elt Ideal) VS0_3.junk)) (scAt0_3 m c) (fun _ => 0)
      (fun n i => tileDot3 m c n (i 0) (i 1)) (4 * (t.val / 4)) 3
      (fun h i => by
        obtain ⟨r', q', rfl⟩ : ∃ (r' : Fin 512) (q' : Fin 1024), i = ix2 r' q' := ⟨i 0, i 1, eq_ix2 i⟩
        show _ = (0 : EReal) + tileDot3 m c (4 * (t.val / 4)) r' q'
        rw [scAt0_3_apply, if_pos (by omega)])
      (fun n h acc i hlt hle => by
        obtain ⟨r', q', rfl⟩ : ∃ (r' : Fin 512) (q' : Fin 1024), i = ix2 r' q' := ⟨i 0, i 1, eq_ix2 i⟩
        show _ = acc (ix2 r' q') + tileDot3 m c n r' q'
        rw [scAt0_3_apply, if_neg (by omega)])
      3 (le_refl 3) h (ix2 r n)).trans ?_
    show (0 : EReal) + ∑ s ∈ Finset.range (3 + 1), tileDot3 m c (4 * (t.val / 4) + s) r n = _
    rw [zero_add]
  exact gen _ h1 _

/-- … which is the whole dot product of row `R = 512·(t / 4) + r` of the staged joined input with column `n` of the
    output gate's staged weights: each addend is 512 consecutive terms of it. -/
theorem gate3_last (c : Dev nD) (t : Fin cfg0.N) (h1 : t.val % 4 = 3) (r : Fin 512) (n : Fin 1024) (R : Fin 4096)
    (hR : R.val = 512 * (t.val / 4) + r.val) :
    (outsAt0 m c t.val t.isLt).2.2.2.2 (ix2 r n) = ∑ k : Fin 2048, (zArr m c) (ix2 R k) * (wArr3 m c) (ix2 k n) := by
  rw [acc3_last m c t h1 r n]
  refine (dot_blocks (zArr m c) (wArr3 m c) R n (fun s => tileDot3 m c (4 * (t.val / 4) + s) r n) (fun s hs => ?_)).symm
  have hN := N32
  have ht := t.isLt
  have hb : 4 * (t.val / 4) + s < cfg0.N := by omega
  show tileDot3 m c (4 * (t.val / 4) + s) r n = _
  rw [tileDot3_lt m c _ hb, Finset.sum_range]
  refine Finset.sum_congr rfl fun j _ => ?_
  have hj := j.isLt
  have hk : 512 * s + j.val < 2048 := by omega
  rw [dotTerm_lt _ _ R n _ hk]
  exact congrArg₂ (· * ·)
    (zTile_at m c ⟨4 * (t.val / 4) + s, hb⟩ r j R ⟨512 * s + j.val, hk⟩
      (by show R.val = 512 * ((4 * (t.val / 4) + s) / 4) + r.val; omega)
      (by show 512 * s + j.val = 512 * ((4 * (t.val / 4) + s) % 4) + j.val; omega))
    (wTile4_at m c ⟨4 * (t.val / 4) + s, hb⟩ j n ⟨512 * s + j.val, hk⟩
      (by show 512 * s + j.val = 512 * ((4 * (t.val / 4) + s) % 4) + j.val; omega))

/-! ## The output block of a run's last point -/

/-- The result array the region leaves, as the specification of the arrays it is launched on. -/
abbrev G (c : Dev nD) : S4096x1024.Idx → EReal :=
  hNew (zArr m c) (V m c main_arg2 : Vec Ideal S4096x1024 .f32)
    (wArr0 m c) (V m c main_arg4 : Vec Ideal S1x1024 .f32) (wArr1 m c) (V m c main_arg6 : Vec Ideal S1x1024 .f32)
    (wArr2 m c) (V m c main_arg8 : Vec Ideal S1x1024 .f32) (wArr3 m c) (V m c main_arg10 : Vec Ideal S1x1024 .f32)

/-- At a run's last point the output's staging buffer holds the output payload of the four accumulators as this
    point leaves them, the bias rows and the old cell state's tile. -/
theorem out_last_eq (c : Dev nD) (t : Fin cfg0.N) (h0 : ¬t.val % 4 = 0) (h1 : t.val % 4 = 3) :
    (outsAt0 m c t.val t.isLt).1
      = k0_pay2 (outsAt0 m c t.val t.isLt).2.1 (iblk m c 5 t) (outsAt0 m c t.val t.isLt).2.2.1 (iblk m c 6 t) (outsAt0 m c t.val t.isLt).2.2.2.1 (iblk m c 7 t)
          (outsAt0 m c t.val t.isLt).2.2.2.2 (iblk m c 8 t) (iblk m c 9 t) := by
  rw [outsAt0_C m c t h0 h1]
  dsimp only
  refine (out0_C_10_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).trans ?_
  rw [sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

/-- … so its entry `(r, n)` is the specification's new hidden state at row `R = 512·(t / 4) + r`, column `n`. -/
theorem out_last_apply (c : Dev nD) (t : Fin cfg0.N) (h0 : ¬t.val % 4 = 0) (h1 : t.val % 4 = 3) (r : Fin 512) (n : Fin 1024)
    (R : Fin 4096) (hR : R.val = 512 * (t.val / 4) + r.val) :
    (outsAt0 m c t.val t.isLt).1 (ix2 r n) = G m c (ix2 R n) := by
  refine (congrFun (out_last_eq m c t h0 h1) (ix2 r n)).trans ?_
  refine (k0_pay2_apply (outsAt0 m c t.val t.isLt).2.1 (iblk m c 5 t) (outsAt0 m c t.val t.isLt).2.2.1 (iblk m c 6 t) (outsAt0 m c t.val t.isLt).2.2.2.1 (iblk m c 7 t)
    (outsAt0 m c t.val t.isLt).2.2.2.2 (iblk m c 8 t) (iblk m c 9 t) r n).trans ?_
  rw [gate0_last m c t h1 r n R hR, gate1_last m c t h1 r n R hR, gate2_last m c t h1 r n R hR, gate3_last m c t h1 r n R hR,
    bRow5_apply m c t n, bRow6_apply m c t n, bRow7_apply m c t n, bRow8_apply m c t n, cTile_at m c t r n R hR]
  rfl

/-! ## From blocks to the array -/

/-- What a run's last point writes back is its block of `G`. -/
theorem flushed_eq (c : Dev nD) (t : Fin cfg0.N) (hf : (cfg0.win 10).flush t = true) :
    (dats m 0 c).flushed 10 t = ((cfg0.win 10).blk t).view.read (Elt Ideal) (G m c) := by
  have h1 : t.val % 4 = 3 := (flush0_10 t).mp hf
  have h0 : ¬t.val % 4 = 0 := by omega
  have hN := N32
  have ht := t.isLt
  rw [flushed10 m c t]
  have key : ∀ y : S512x1024.Idx, (outsAt0 m c t.val t.isLt).1 y = G m c (((cfg0.win 10).blk t).view.emb y) := fun y => by
    obtain ⟨r, n, rfl⟩ : ∃ (r : Fin 512) (n : Fin 1024), y = ix2 r n := ⟨y 0, y 1, eq_ix2 y⟩
    have hr := r.isLt
    rw [oBlock_emb t r n ⟨512 * (t.val / 4) + r.val, by omega⟩ rfl]
    exact out_last_apply m c t h0 h1 r n ⟨512 * (t.val / 4) + r.val, by omega⟩ rfl
  exact funext key

/-- An index of the result is in point `t`'s block iff its row is in the block's 512 rows. -/
theorem mem_blk (t : Fin cfg0.N) (i : S4096x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v6).slice (win0_10.rect t)).set ↔ _
  rw [View.set_slice_whole, Rect.mem_set_unit]
  exact Iff.rfl

/-- Every index of the result lies in the block some run's last point writes back: row `ρ` in batch tile `ρ / 512`. -/
theorem cover (i : S4096x1024.Idx) :
    ∃ t : Fin cfg0.N, (cfg0.win 10).flush t = true ∧ i ∈ ((cfg0.win 10).blk t).view.set := by
  have hN := N32
  have hi0 : (i 0).val < 4096 := (i 0).isLt
  have hi1 : (i 1).val < 1024 := (i 1).isLt
  let t : Fin cfg0.N := ⟨4 * ((i 0).val / 512) + 3, by omega⟩
  have htv : t.val = 4 * ((i 0).val / 512) + 3 := rfl
  obtain ⟨e0, e1⟩ := idx_w10 t
  refine ⟨t, (flush0_10 t).mpr (by omega), ?_⟩
  rw [mem_blk]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 1024 ≤ (i 1).val ∧ (i 1).val < win0_10.index t (1 : Fin 2) * 1024 + 1024; omega

/-- The result array after the run is `G`. -/
theorem final (c : Dev nD) : (dats m 0 c).arrAt 10 cfg0.N = G m c :=
  (dats m 0 c).arrAt_eq_of_cover 10 (G m c) (fun t hf => flushed_eq m c t hf) cover

/-- `G` in terms of @main's arguments: the joined array of `x` and `h`, the old cell state, the weights and biases. -/
theorem G_eq (c : Dev nD) :
    G m c = hNew (joined (m ((c : Thread nD τ).loc main_arg0)) (m ((c : Thread nD τ).loc main_arg1)))
      (m ((c : Thread nD τ).loc main_arg2))
      (m ((c : Thread nD τ).loc main_arg3)) (m ((c : Thread nD τ).loc main_arg4))
      (m ((c : Thread nD τ).loc main_arg5)) (m ((c : Thread nD τ).loc main_arg6))
      (m ((c : Thread nD τ).loc main_arg7)) (m ((c : Thread nD τ).loc main_arg8))
      (m ((c : Thread nD τ).loc main_arg9)) (m ((c : Thread nD τ).loc main_arg10)) := by
  show hNew (V m c main_v1) (V m c main_arg2) (V m c main_v2) (V m c main_arg4) (V m c main_v3) (V m c main_arg6)
    (V m c main_v4) (V m c main_arg8) (V m c main_v5) (V m c main_arg10) = _
  rw [zArr_eq m c, wArr1_eq m c, wArr2_eq m c, wArr3_eq m c, wArr4_eq m c, V_main_arg2 m c, V_main_arg4 m c, V_main_arg6 m c,
    V_main_arg8 m c, V_main_arg10 m c]

/-- The kernel's run: it terminates with the result at the specification of the arguments, the arguments unchanged. -/
theorem run : θ_run defs (onTc (τ := τ) (main (F := Ideal))) ⟨m, fun _ => 0, ρ⟩ fun r => ∀ c : Dev nD,
      r.2.mem ((c : Thread nD τ).loc main_v6)
        = hNew (joined (m ((c : Thread nD τ).loc main_arg0)) (m ((c : Thread nD τ).loc main_arg1)))
            (m ((c : Thread nD τ).loc main_arg2))
            (m ((c : Thread nD τ).loc main_arg3)) (m ((c : Thread nD τ).loc main_arg4))
            (m ((c : Thread nD τ).loc main_arg5)) (m ((c : Thread nD τ).loc main_arg6))
            (m ((c : Thread nD τ).loc main_arg7)) (m ((c : Thread nD τ).loc main_arg8))
            (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (G_eq m c)), (h c).2⟩) (run_blocks m ρ)

end Cert.KernelIdeal.HandValue

end
-- ==== Proof.lean ====
/-
  One step of an LSTM cell: a fused, tiled kernel against the plain formula.

  With `z = [x | h]` the row-wise concatenation (4096 rows of 2048 entries), each of the four gates has the
  pre-activation `z · w + b` for its own weight matrix and bias, and the new hidden state is

      tanh (c * σ(z·w_f + b_f) + σ(z·w_i + b_i) * tanh (z·w_c + b_c)) * σ(z·w_o + b_o),

  `σ` the logistic function. The reference computes exactly this with four whole matrix products. The kernel walks a
  grid of 8 batch tiles × 4 tiles of the 2048-long reduction axis; it keeps one accumulator per gate, resets the four
  to zero at a batch tile's first reduction tile, adds the tile's partial matrix product at every reduction tile, and
  at the last one applies the biases, the logistic function and `tanh`, combines with the old cell state's tile and
  writes the block of the result.

  Over the extended reals the two agree. A conversion of float format changes nothing. The kernel's logistic
  operation and the reference's `1 / (1 + exp (-p))` are one function, at the infinities too, and likewise the two
  hyperbolic tangents. And the kernel's `((0 + P₀) + P₁) + P₂) + P₃`, `P_s` the partial dot product over positions
  `512·s … 512·s + 511`, is the whole 2048-term dot product, because addition on the extended reals is associative
  and commutative — no input needs to be finite for that, so the precondition is never opened.

  The pieces: `Spec` states the formula and the regrouping of the sum; `RefIsSpec` reads the reference's run, stage by
  stage, as the formula; `KPayload` reads the kernel body's arithmetic at an element; `KPieces` names what a run of the
  body leaves in each accumulator and in the output block; `KBlocks` reads each window's tile as entries of the
  arrays; `KValue` folds the accumulators over a batch tile's four reduction tiles and assembles the result array.
  The kernel's idealization rewrote no operation, so there is nothing to preserve beyond the program's own text.
-/
import proofs.«145260_j61220463837880_1_alg».proof.Defs
import proofs.«145260_j61220463837880_1_alg».proof.Proof.Gen.Kernel
import proofs.«145260_j61220463837880_1_alg».proof.Proof.Gen.Kernel.Skeleton
import proofs.«145260_j61220463837880_1_alg».proof.Proof.Gen.Kernel.Launch
import proofs.«145260_j61220463837880_1_alg».proof.Proof.Gen.Kernel.Points
import proofs.«145260_j61220463837880_1_alg».proof.Proof.Gen.Kernel.Frame
import proofs.«145260_j61220463837880_1_alg».proof.Proof.Gen.KernelIdeal
import proofs.«145260_j61220463837880_1_alg».proof.Proof.Gen.KernelIdeal.Skeleton
import proofs.«145260_j61220463837880_1_alg».proof.Proof.Gen.KernelIdeal.Launch
import proofs.«145260_j61220463837880_1_alg».proof.Proof.Gen.KernelIdeal.Points
import proofs.«145260_j61220463837880_1_alg».proof.Proof.Gen.KernelIdeal.Frame
import proofs.«145260_j61220463837880_1_alg».proof.Proof.Gen.ReferenceIdeal
import proofs.«145260_j61220463837880_1_alg».proof.Proof.Gen.Pre_finite_inputs
import proofs.«145260_j61220463837880_1_alg».proof.Proof.Gen.KernelIdeal.Value
import proofs.«145260_j61220463837880_1_alg».proof.Proof.Gen.ReferenceIdeal.Run
import proofs.«145260_j61220463837880_1_alg».proof.Proof.Gen.ReferenceIdeal.Read
import proofs.«145260_j61220463837880_1_alg».proof.Proof.RefIsSpec
import proofs.«145260_j61220463837880_1_alg».proof.Proof.KValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the eleven arguments, both programs end with the formula's new hidden state of
    those arguments: the kernel by the fold over its grid, the reference stage by stage. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v36_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
  refine (Cert.ReferenceIdeal.RefValue.result_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
  obtain ⟨a0, a1, a2, a3, a4, a5, a6, a7, a8, a9, a10⟩ := hagree c
  rw [a0, a1, a2, a3, a4, a5, a6, a7, a8, a9, a10]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
